-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x480000 : Shape := ⟨3, ![32, 1, 480000]⟩
abbrev S32x60 : Shape := ⟨2, ![32, 60]⟩
abbrev S32x300 : Shape := ⟨2, ![32, 300]⟩
abbrev S_ : Shape := ⟨0, ![]⟩

class Facts : Prop where
  bcast_S_S32x1x480000 : S_.BroadcastsInDim S32x1x480000 (![] : Fin 0 → Fin S32x1x480000.rank)
  reducesTo_S32x1x480000_S_d0_1_2 : S32x1x480000.ReducesTo [0, 1, 2] S_
  h_S_ : 0 < S_.numel

variable [Facts]

def fn {F : FTy → Type} [FloatOps F] (main_arg0 : FVec F S32x1x480000 .f32) (main_arg1 : FVec F S32x1x480000 .f32) (main_arg2 : IVec S32x60 32) (main_arg3 : IVec S32x300 32) : IVec S_ 1 :=
  let main_v0 : FVec F S32x1x480000 .f32 := Host.absf main_arg0
  let main_cst : FVec F S_ .f32 := constant S_ .f32 0x7F800000#32
  let main_v1 : FVec F S32x1x480000 .f32 := broadcastInDim S32x1x480000 ![] bcast_S_S32x1x480000 main_cst
  let main_v2 : IVec S32x1x480000 1 := cmpf .olt main_v0 main_v1
  let main_c : IVec S_ 1 := constantI S_ 1 1#1
  let main_v3 : IVec S_ 1 := (fun x v => Host.reduce IntOp.andi x v reducesTo_S32x1x480000_S_d0_1_2 h_S_) main_v2 main_c
  let main_v4 : FVec F S32x1x480000 .f32 := Host.absf main_arg1
  let main_cst_0 : FVec F S_ .f32 := constant S_ .f32 0x7F800000#32
  let main_v5 : FVec F S32x1x480000 .f32 := broadcastInDim S32x1x480000 ![] bcast_S_S32x1x480000 main_cst_0
  let main_v6 : IVec S32x1x480000 1 := cmpf .olt main_v4 main_v5
  let main_c_1 : IVec S_ 1 := constantI S_ 1 1#1
  let main_v7 : IVec S_ 1 := (fun x v => Host.reduce IntOp.andi x v reducesTo_S32x1x480000_S_d0_1_2 h_S_) main_v6 main_c_1
  let main_v8 : IVec S_ 1 := andi main_v3 main_v7
  main_v8
-- ==== Kernel.lean ====
abbrev S32x1x480000 : Shape := ⟨3, ![32, 1, 480000]⟩
abbrev S32x60 : Shape := ⟨2, ![32, 60]⟩
abbrev S32x300 : Shape := ⟨2, ![32, 300]⟩
abbrev S_ : Shape := ⟨0, ![]⟩
abbrev S32 : Shape := ⟨1, ![32]⟩
abbrev S32x1 : Shape := ⟨2, ![32, 1]⟩
abbrev S32x60x1 : Shape := ⟨3, ![32, 60, 1]⟩
abbrev S32x60x2 : Shape := ⟨3, ![32, 60, 2]⟩
abbrev S9600x1600 : Shape := ⟨2, ![9600, 1600]⟩
abbrev S9600x1 : Shape := ⟨2, ![9600, 1]⟩
abbrev S400x1600 : Shape := ⟨2, ![400, 1600]⟩
abbrev S400x1 : Shape := ⟨2, ![400, 1]⟩

abbrev nBuf : Space → Nat
  | .hbm => 46
  | .vmem => 16
  | .smem => 0
  | _ => 0

abbrev bufTy : (tb : Table) → Fin (tcTables nBuf tb) → BufTy
  | .hbm, ⟨0, _⟩ => ⟨S32x1x480000, .f32⟩
  | .hbm, ⟨1, _⟩ => ⟨S32x1x480000, .f32⟩
  | .hbm, ⟨2, _⟩ => ⟨S32x60, .i32⟩
  | .hbm, ⟨3, _⟩ => ⟨S32x300, .i32⟩
  | .hbm, ⟨4, _⟩ => ⟨S_, .f32⟩
  | .hbm, ⟨5, _⟩ => ⟨S32x300, .f32⟩
  | .hbm, ⟨6, _⟩ => ⟨S32, .i32⟩
  | .hbm, ⟨7, _⟩ => ⟨S32x1, .i32⟩
  | .hbm, ⟨8, _⟩ => ⟨S_, .i32⟩
  | .hbm, ⟨9, _⟩ => ⟨S32x1, .i32⟩
  | .hbm, ⟨10, _⟩ => ⟨S32x1, .i1⟩
  | .hbm, ⟨11, _⟩ => ⟨S_, .i32⟩
  | .hbm, ⟨12, _⟩ => ⟨S32x1, .i32⟩
  | .hbm, ⟨13, _⟩ => ⟨S32x1, .i32⟩
  | .hbm, ⟨14, _⟩ => ⟨S32x1, .i32⟩
  | .hbm, ⟨15, _⟩ => ⟨S_, .i32⟩
  | .hbm, ⟨16, _⟩ => ⟨S32x60, .i32⟩
  | .hbm, ⟨17, _⟩ => ⟨S32x60, .i1⟩
  | .hbm, ⟨18, _⟩ => ⟨S_, .i32⟩
  | .hbm, ⟨19, _⟩ => ⟨S32x60, .i32⟩
  | .hbm, ⟨20, _⟩ => ⟨S32x60, .i32⟩
  | .hbm, ⟨21, _⟩ => ⟨S32x60, .i32⟩
  | .hbm, ⟨22, _⟩ => ⟨S32x60, .i32⟩
  | .hbm, ⟨23, _⟩ => ⟨S32x60x1, .i32⟩
  | .hbm, ⟨24, _⟩ => ⟨S32x60x1, .i32⟩
  | .hbm, ⟨25, _⟩ => ⟨S32x60x2, .i32⟩
  | .hbm, ⟨26, _⟩ => ⟨S_, .f32⟩
  | .hbm, ⟨27, _⟩ => ⟨S32x60, .f32⟩
  | .hbm, ⟨28, _⟩ => ⟨S32x300, .f32⟩
  | .hbm, ⟨29, _⟩ => ⟨S32x300, .f32⟩
  | .hbm, ⟨30, _⟩ => ⟨S32x300, .f32⟩
  | .hbm, ⟨31, _⟩ => ⟨S_, .f32⟩
  | .hbm, ⟨32, _⟩ => ⟨S32x300, .f32⟩
  | .hbm, ⟨33, _⟩ => ⟨S32x300, .f32⟩
  | .hbm, ⟨34, _⟩ => ⟨S32x300, .f32⟩
  | .hbm, ⟨35, _⟩ => ⟨S9600x1600, .f32⟩
  | .hbm, ⟨36, _⟩ => ⟨S9600x1600, .f32⟩
  | .hbm, ⟨37, _⟩ => ⟨S9600x1, .f32⟩
  | .hbm, ⟨38, _⟩ => ⟨S9600x1, .f32⟩
  | .hbm, ⟨39, _⟩ => ⟨S9600x1, .f32⟩
  | .hbm, ⟨40, _⟩ => ⟨S9600x1600, .f32⟩
  | .hbm, ⟨41, _⟩ => ⟨S9600x1600, .f32⟩
  | .hbm, ⟨42, _⟩ => ⟨S9600x1600, .f32⟩
  | .hbm, ⟨43, _⟩ => ⟨S32x1x480000, .f32⟩
  | .hbm, ⟨44, _⟩ => ⟨S32x1x480000, .f32⟩
  | .hbm, ⟨45, _⟩ => ⟨S32x1x480000, .f32⟩
  | .local _ .vmem, ⟨0, _⟩ => ⟨S400x1600, .f32⟩
  | .local _ .vmem, ⟨1, _⟩ => ⟨S400x1600, .f32⟩
  | .local _ .vmem, ⟨2, _⟩ => ⟨S400x1600, .f32⟩
  | .local _ .vmem, ⟨3, _⟩ => ⟨S400x1600, .f32⟩
  | .local _ .vmem, ⟨4, _⟩ => ⟨S400x1, .f32⟩
  | .local _ .vmem, ⟨5, _⟩ => ⟨S400x1, .f32⟩
  | .local _ .vmem, ⟨6, _⟩ => ⟨S400x1, .f32⟩
  | .local _ .vmem, ⟨7, _⟩ => ⟨S400x1, .f32⟩
  | .local _ .vmem, ⟨8, _⟩ => ⟨S400x1, .f32⟩
  | .local _ .vmem, ⟨9, _⟩ => ⟨S400x1, .f32⟩
  | .local _ .vmem, ⟨10, _⟩ => ⟨S400x1600, .f32⟩
  | .local _ .vmem, ⟨11, _⟩ => ⟨S400x1600, .f32⟩
  | .local _ .vmem, ⟨12, _⟩ => ⟨S400x1600, .f32⟩
  | .local _ .vmem, ⟨13, _⟩ => ⟨S400x1600, .f32⟩
  | .local _ .vmem, ⟨14, _⟩ => ⟨S400x1600, .f32⟩
  | .local _ .vmem, ⟨15, _⟩ => ⟨S400x1600, .f32⟩
  | _, _ => ⟨S32x1x480000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x1600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S32x300 : S_.BroadcastsInDim S32x300 (![] : Fin 0 → Fin S32x300.rank)
  bcast_S32_S32x1_0 : S32.BroadcastsInDim S32x1 (![0] : Fin 1 → Fin S32x1.rank)
  bcast_S_S32x1 : S_.BroadcastsInDim S32x1 (![] : Fin 0 → Fin S32x1.rank)
  bcast_S_S32x60 : S_.BroadcastsInDim S32x60 (![] : Fin 0 → Fin S32x60.rank)
  bcast_S32x1_S32x60_0_1 : S32x1.BroadcastsInDim S32x60 (![0, 1] : Fin 2 → Fin S32x60.rank)
  bcast_S32x60_S32x60x1_0_1 : S32x60.BroadcastsInDim S32x60x1 (![0, 1] : Fin 2 → Fin S32x60x1.rank)
  concatenates_S32x60x1_S32x60x1_S32x60x2_d2 : Shape.Concatenates [S32x60x1, S32x60x1] S32x60x2 2
  shapeCasts_S32x1x480000_S9600x1600 : S32x1x480000.ShapeCasts S9600x1600
  shapeCasts_S32x300_S9600x1 : S32x300.ShapeCasts S9600x1
  inb_S400x1600_S400x1600_0_0 : ∀ a, (![0, 0] : Fin 2 → Nat) a + S400x1600.size a ≤ S400x1600.size a
  h_S400x1600 : 0 < S400x1600.numel
  shapeCasts_S400x1600_S400x1600 : S400x1600.ShapeCasts S400x1600
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x1600 : S400x1.Broadcasts S400x1600
  shapeCasts_S9600x1600_S32x1x480000 : S9600x1600.ShapeCasts S32x1x480000
  scatter_S32x300_S32x60x2_S32x60_n_01_01_2_wf : ScatterDims.WF S32x300 S32x60x2 S32x60 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1600.size a ≤ S9600x1600.size a
  hwx0_0 : ∀ i : grid0.Coords, EltTy.bits .f32 = 32 ∨ (Rect.block (s := S9600x1600) S400x1600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1600.size a ≤ S9600x1600.size a
  hwx0_1 : ∀ i : grid0.Coords, EltTy.bits .f32 = 32 ∨ (Rect.block (s := S9600x1600) S400x1600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S9600x1.size a
  hwx0_2 : ∀ i : grid0.Coords, EltTy.bits .f32 = 32 ∨ (Rect.block (s := S9600x1) S400x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1.size a ≤ S9600x1.size a
  hwx0_3 : ∀ i : grid0.Coords, EltTy.bits .f32 = 32 ∨ (Rect.block (s := S9600x1) S400x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1.size a ≤ S9600x1.size a
  hwx0_4 : ∀ i : grid0.Coords, EltTy.bits .f32 = 32 ∨ (Rect.block (s := S9600x1) S400x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x1600.size a ≤ S9600x1600.size a
  hwx0_5 : ∀ i : grid0.Coords, EltTy.bits .f32 = 32 ∨ (Rect.block (s := S9600x1600) S400x1600.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x1600.size a ≤ S9600x1600.size a
  hwx0_6 : ∀ i : grid0.Coords, EltTy.bits .f32 = 32 ∨ (Rect.block (s := S9600x1600) S400x1600.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x1600.size a ≤ S9600x1600.size a
  hwx0_7 : ∀ i : grid0.Coords, EltTy.bits .f32 = 32 ∨ (Rect.block (s := S9600x1600) S400x1600.size (cc0_transform_7 i) (hinb0_7 i)).WholeWords (EltTy.packing .f32)

variable [Facts₀]

def scatter_S32x300_S32x60x2_S32x60_n_01_01_2 : ScatterDims S32x300 S32x60x2 S32x60 where
  updateWindowDims := []
  insertedWindowDims := [0, 1]
  scatterDimsToOperandDims := [0, 1]
  indexVectorDim := 2
  wf := scatter_S32x300_S32x60x2_S32x60_n_01_01_2_wf

abbrev win0_0 : Pipeline.Window sig grid0 :=
  Pipeline.Window.ofSpec (Memref.whole main_v24) S400x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S400x1600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S400x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S400x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_0) S400x1600.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29_1) S400x1600.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29_2) S400x1600.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1x480000 : Shape := ⟨3, ![32, 1, 480000]⟩
abbrev S32x60 : Shape := ⟨2, ![32, 60]⟩
abbrev S32x300 : Shape := ⟨2, ![32, 300]⟩
abbrev S_ : Shape := ⟨0, ![]⟩
abbrev S32 : Shape := ⟨1, ![32]⟩
abbrev S32x1 : Shape := ⟨2, ![32, 1]⟩
abbrev S32x60x1 : Shape := ⟨3, ![32, 60, 1]⟩
abbrev S32x60x2 : Shape := ⟨3, ![32, 60, 2]⟩
abbrev S32x300x1600 : Shape := ⟨3, ![32, 300, 1600]⟩
abbrev S32x480000 : Shape := ⟨2, ![32, 480000]⟩

abbrev nBuf : Space → Nat
  | .hbm => 57
  | .vmem => 0
  | .smem => 0
  | _ => 0

abbrev bufTy : (tb : Table) → Fin (tcTables nBuf tb) → BufTy
  | .hbm, ⟨0, _⟩ => ⟨S32x1x480000, .f32⟩
  | .hbm, ⟨1, _⟩ => ⟨S32x1x480000, .f32⟩
  | .hbm, ⟨2, _⟩ => ⟨S32x60, .i32⟩
  | .hbm, ⟨3, _⟩ => ⟨S32x300, .i32⟩
  | .hbm, ⟨4, _⟩ => ⟨S_, .f32⟩
  | .hbm, ⟨5, _⟩ => ⟨S32x300, .f32⟩
  | .hbm, ⟨6, _⟩ => ⟨S32, .i32⟩
  | .hbm, ⟨7, _⟩ => ⟨S32x1, .i32⟩
  | .hbm, ⟨8, _⟩ => ⟨S_, .i32⟩
  | .hbm, ⟨9, _⟩ => ⟨S32x1, .i32⟩
  | .hbm, ⟨10, _⟩ => ⟨S32x1, .i1⟩
  | .hbm, ⟨11, _⟩ => ⟨S_, .i32⟩
  | .hbm, ⟨12, _⟩ => ⟨S32x1, .i32⟩
  | .hbm, ⟨13, _⟩ => ⟨S32x1, .i32⟩
  | .hbm, ⟨14, _⟩ => ⟨S32x1, .i32⟩
  | .hbm, ⟨15, _⟩ => ⟨S_, .i32⟩
  | .hbm, ⟨16, _⟩ => ⟨S32x60, .i32⟩
  | .hbm, ⟨17, _⟩ => ⟨S32x60, .i1⟩
  | .hbm, ⟨18, _⟩ => ⟨S_, .i32⟩
  | .hbm, ⟨19, _⟩ => ⟨S32x60, .i32⟩
  | .hbm, ⟨20, _⟩ => ⟨S32x60, .i32⟩
  | .hbm, ⟨21, _⟩ => ⟨S32x60, .i32⟩
  | .hbm, ⟨22, _⟩ => ⟨S32x60, .i32⟩
  | .hbm, ⟨23, _⟩ => ⟨S32x60x1, .i32⟩
  | .hbm, ⟨24, _⟩ => ⟨S32x60x1, .i32⟩
  | .hbm, ⟨25, _⟩ => ⟨S32x60x2, .i32⟩
  | .hbm, ⟨26, _⟩ => ⟨S_, .f32⟩
  | .hbm, ⟨27, _⟩ => ⟨S32x60, .f32⟩
  | .hbm, ⟨28, _⟩ => ⟨S32x300, .f32⟩
  | .hbm, ⟨29, _⟩ => ⟨S32x300, .f32⟩
  | .hbm, ⟨30, _⟩ => ⟨S32x300, .f32⟩
  | .hbm, ⟨31, _⟩ => ⟨S_, .f32⟩
  | .hbm, ⟨32, _⟩ => ⟨S32x300, .f32⟩
  | .hbm, ⟨33, _⟩ => ⟨S32x300, .f32⟩
  | .hbm, ⟨34, _⟩ => ⟨S32x300, .f32⟩
  | .hbm, ⟨35, _⟩ => ⟨S32x300x1600, .f32⟩
  | .hbm, ⟨36, _⟩ => ⟨S32x480000, .f32⟩
  | .hbm, ⟨37, _⟩ => ⟨S32x1x480000, .f32⟩
  | .hbm, ⟨38, _⟩ => ⟨S32x300x1600, .f32⟩
  | .hbm, ⟨39, _⟩ => ⟨S32x480000, .f32⟩
  | .hbm, ⟨40, _⟩ => ⟨S32x1x480000, .f32⟩
  | .hbm, ⟨41, _⟩ => ⟨S32x300x1600, .f32⟩
  | .hbm, ⟨42, _⟩ => ⟨S32x480000, .f32⟩
  | .hbm, ⟨43, _⟩ => ⟨S32x1x480000, .f32⟩
  | .hbm, ⟨44, _⟩ => ⟨S_, .f32⟩
  | .hbm, ⟨45, _⟩ => ⟨S32x1x480000, .f32⟩
  | .hbm, ⟨46, _⟩ => ⟨S32x1x480000, .f32⟩
  | .hbm, ⟨47, _⟩ => ⟨S32x1x480000, .f32⟩
  | .hbm, ⟨48, _⟩ => ⟨S32x1x480000, .f32⟩
  | .hbm, ⟨49, _⟩ => ⟨S32x1x480000, .f32⟩
  | .hbm, ⟨50, _⟩ => ⟨S_, .f32⟩
  | .hbm, ⟨51, _⟩ => ⟨S32x1x480000, .f32⟩
  | .hbm, ⟨52, _⟩ => ⟨S32x1x480000, .f32⟩
  | .hbm, ⟨53, _⟩ => ⟨S32x1x480000, .f32⟩
  | .hbm, ⟨54, _⟩ => ⟨S_, .f32⟩
  | .hbm, ⟨55, _⟩ => ⟨S32x1x480000, .f32⟩
  | .hbm, ⟨56, _⟩ => ⟨S32x1x480000, .f32⟩
  | _, _ => ⟨S32x1x480000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  bcast_S_S32x300 : S_.BroadcastsInDim S32x300 (![] : Fin 0 → Fin S32x300.rank)
  bcast_S32_S32x1_0 : S32.BroadcastsInDim S32x1 (![0] : Fin 1 → Fin S32x1.rank)
  bcast_S_S32x1 : S_.BroadcastsInDim S32x1 (![] : Fin 0 → Fin S32x1.rank)
  bcast_S_S32x60 : S_.BroadcastsInDim S32x60 (![] : Fin 0 → Fin S32x60.rank)
  bcast_S32x1_S32x60_0_1 : S32x1.BroadcastsInDim S32x60 (![0, 1] : Fin 2 → Fin S32x60.rank)
  bcast_S32x60_S32x60x1_0_1 : S32x60.BroadcastsInDim S32x60x1 (![0, 1] : Fin 2 → Fin S32x60x1.rank)
  concatenates_S32x60x1_S32x60x1_S32x60x2_d2 : Shape.Concatenates [S32x60x1, S32x60x1] S32x60x2 2
  bcast_S32x300_S32x300x1600_0_1 : S32x300.BroadcastsInDim S32x300x1600 (![0, 1] : Fin 2 → Fin S32x300x1600.rank)
  shapeCasts_S32x300x1600_S32x480000 : S32x300x1600.ShapeCasts S32x480000
  bcast_S32x480000_S32x1x480000_0_2 : S32x480000.BroadcastsInDim S32x1x480000 (![0, 2] : Fin 2 → Fin S32x1x480000.rank)
  bcast_S_S32x1x480000 : S_.BroadcastsInDim S32x1x480000 (![] : Fin 0 → Fin S32x1x480000.rank)
  scatter_S32x300_S32x60x2_S32x60_n_01_01_2_wf : ScatterDims.WF S32x300 S32x60x2 S32x60 [] [0, 1] [0, 1] 2

variable [Facts₀]

def scatter_S32x300_S32x60x2_S32x60_n_01_01_2 : ScatterDims S32x300 S32x60x2 S32x60 where
  updateWindowDims := []
  insertedWindowDims := [0, 1]
  scatterDimsToOperandDims := [0, 1]
  indexVectorDim := 2
  wf := scatter_S32x300_S32x60x2_S32x60_n_01_01_2_wf

class Facts : Prop extends Facts₀ where

variable [Facts]
-- ==== Proof.SegmentBlend.lean ====
/-
  What the two programs compute, stated once, with no program in sight.

  An item's 480000 samples fall into 300 consecutive segments of 1600 samples: sample `t` lies in segment
  `t / 1600`. Three per-segment masks over [32, 300] (attacked; attacked and reverted; attacked and zeroed) are
  spread over the samples of their segments, and the three results are pointwise in the samples:
    attacked  = watermarked · (1 − a) + original · r
    presence  = 1 − a
    kept      = original · (1 − z)
  with `a`, `r`, `z` the masks read at the sample's segment. No law of arithmetic is used anywhere below: the two
  programs apply the same operations in the same order, so the statements are over the bare operations of any float
  instance, and the literal `1` is kept as its word.

  The second half is layout only. The same data seen as 9600 rows of 1600 samples, one row per (item, segment), with
  each mask a column [9600, 1]: row `b · 300 + t / 1600`, lane `t % 1600` is sample `t` of item `b`, and its
  mask entry is the column's entry of that row.
-/
import Idealize.ShloMosaic.PureOps.Ideal
import Idealize.ShloMosaic.Lib.ValueIdx
import Idealize.ShloMosaic.Lib.Pipeline.Value

noncomputable section

namespace Cert.SegmentBlend

open Idealize.ShloMosaic Idealize.ShloMosaic.ValueIdx

/-- The audio arrays: item, channel (one), sample. -/
abbrev Samples : Shape := ⟨3, ![32, 1, 480000]⟩
/-- The per-segment masks: item, segment. -/
abbrev Segments : Shape := ⟨2, ![32, 300]⟩
/-- The row view: one row of 1600 samples per (item, segment). -/
abbrev Rows : Shape := ⟨2, ![9600, 1600]⟩
/-- A mask in the row view: one entry per row. -/
abbrev RowCol : Shape := ⟨2, ![9600, 1]⟩

/-- The segment a sample lies in. -/
def segOf (i : Samples.Idx) : Segments.Idx :=
  ix2 (i 0) ⟨(i 2).val / 1600, by have h : (i 2).val < 480000 := (i 2).isLt; omega⟩

/-- The row and lane of a sample in the row view. -/
def rowOf (i : Samples.Idx) : Rows.Idx :=
  ix2 ⟨(i 0).val * 300 + (i 2).val / 1600, by
        have h0 : (i 0).val < 32 := (i 0).isLt; have h2 : (i 2).val < 480000 := (i 2).isLt; omega⟩
      ⟨(i 2).val % 1600, by omega⟩

/-- The column entry of a row. -/
def colOf (j : Rows.Idx) : RowCol.Idx := ix2 (j 0) (0 : Fin 1)

section Results

variable {F : FTy → Type} [FloatOps F]

/-- The literal one, as its word. -/
def unit : F .f32 := FloatOps.ofBits .f32 0x3F800000#32

/-- Unattacked samples keep the watermarked signal, reverted ones take the original, zeroed ones vanish. -/
def attacked (o w : Samples.Idx → F .f32) (a r : Segments.Idx → F .f32) : Samples.Idx → F .f32 := fun i =>
  FloatOps.addf (FloatOps.mulf (w i) (FloatOps.subf unit (a (segOf i)))) (FloatOps.mulf (o i) (r (segOf i)))

/-- Where the watermark is still present: everywhere but the attacked segments. -/
def presence (a : Segments.Idx → F .f32) : Samples.Idx → F .f32 := fun i =>
  FloatOps.subf unit (a (segOf i))

/-- The original with the zeroed segments removed. -/
def kept (o : Samples.Idx → F .f32) (z : Segments.Idx → F .f32) : Samples.Idx → F .f32 := fun i =>
  FloatOps.mulf (o i) (FloatOps.subf unit (z (segOf i)))

/-- The same three in the row view, each mask a column. -/
def rowAttacked (o w : Rows.Idx → F .f32) (a r : RowCol.Idx → F .f32) : Rows.Idx → F .f32 := fun j =>
  FloatOps.addf (FloatOps.mulf (w j) (FloatOps.subf unit (a (colOf j)))) (FloatOps.mulf (o j) (r (colOf j)))

def rowPresence (a : RowCol.Idx → F .f32) : Rows.Idx → F .f32 := fun j =>
  FloatOps.subf unit (a (colOf j))

def rowKept (o : Rows.Idx → F .f32) (z : RowCol.Idx → F .f32) : Rows.Idx → F .f32 := fun j =>
  FloatOps.mulf (o j) (FloatOps.subf unit (z (colOf j)))

end Results

/-! ## Layout: the row view is a re-reading of the same positions -/

section Layout

variable {α : Type}

/-- A sample array re-read as rows holds, at a sample's row and lane, that sample: both sit at the same row-major
    position `b · 480000 + t`. -/
theorem rows_at (x : Samples.Idx → α) (h : Samples.ShapeCasts Rows) (i : Samples.Idx) :
    shapeCast Rows x h (rowOf i) = x i := by
  refine shapeCast_apply x h (rowOf i) i ?_
  rw [Shape.rowMajor_val_three, Shape.rowMajor_val_two]
  have h1 : (i 1).val < 1 := (i 1).isLt
  have h2 : (i 2).val < 480000 := (i 2).isLt
  show ((i 0).val * 1 + (i 1).val) * 480000 + (i 2).val
      = ((i 0).val * 300 + (i 2).val / 1600) * 1600 + (i 2).val % 1600
  omega

/-- A row array re-read as samples holds, at a sample, the entry at its row and lane. -/
theorem samples_at (y : Rows.Idx → α) (h : Rows.ShapeCasts Samples) (i : Samples.Idx) :
    shapeCast Samples y h i = y (rowOf i) := by
  refine shapeCast_apply y h i (rowOf i) ?_
  rw [Shape.rowMajor_val_three, Shape.rowMajor_val_two]
  have h1 : (i 1).val < 1 := (i 1).isLt
  have h2 : (i 2).val < 480000 := (i 2).isLt
  show ((i 0).val * 300 + (i 2).val / 1600) * 1600 + (i 2).val % 1600
      = ((i 0).val * 1 + (i 1).val) * 480000 + (i 2).val
  omega

/-- A mask re-read as a column holds, at a sample's row, the mask's entry for the sample's segment: row
    `b · 300 + s` is position `b · 300 + s` of the mask. -/
theorem col_at (a : Segments.Idx → α) (h : Segments.ShapeCasts RowCol) (i : Samples.Idx) :
    shapeCast RowCol a h (colOf (rowOf i)) = a (segOf i) := by
  refine shapeCast_apply a h (colOf (rowOf i)) (segOf i) ?_
  rw [Shape.rowMajor_val_two, Shape.rowMajor_val_two]
  show (i 0).val * 300 + (i 2).val / 1600 = ((i 0).val * 300 + (i 2).val / 1600) * 1 + 0
  omega

end Layout

/-! ## The row view's results, re-read as samples, are the results -/

section Unrow

variable {F : FTy → Type} [FloatOps F]

theorem unrow_attacked (o w : Samples.Idx → F .f32) (a r : Segments.Idx → F .f32)
    (h1 : Samples.ShapeCasts Rows) (h2 : Segments.ShapeCasts RowCol) (h3 : Rows.ShapeCasts Samples) :
    shapeCast Samples (rowAttacked (shapeCast Rows o h1) (shapeCast Rows w h1) (shapeCast RowCol a h2) (shapeCast RowCol r h2)) h3
      = attacked o w a r := by
  funext i
  rw [samples_at]
  unfold rowAttacked attacked
  rw [rows_at, rows_at, col_at, col_at]

theorem unrow_presence (a : Segments.Idx → F .f32)
    (h2 : Segments.ShapeCasts RowCol) (h3 : Rows.ShapeCasts Samples) :
    shapeCast Samples (rowPresence (shapeCast RowCol a h2)) h3 = presence a := by
  funext i
  rw [samples_at]
  unfold rowPresence presence
  rw [col_at]

theorem unrow_kept (o : Samples.Idx → F .f32) (z : Segments.Idx → F .f32)
    (h1 : Samples.ShapeCasts Rows) (h2 : Segments.ShapeCasts RowCol) (h3 : Rows.ShapeCasts Samples) :
    shapeCast Samples (rowKept (shapeCast Rows o h1) (shapeCast RowCol z h2)) h3 = kept o z := by
  funext i
  rw [samples_at]
  unfold rowKept kept
  rw [rows_at, col_at]

end Unrow

end Cert.SegmentBlend

end
-- ==== Proof.KernelBlocks.lean ====
/-
  The kernel's three output arrays after the region, in the row view.

  The grid has 24 points; point `t` works on rows `400 t` to `400 t + 399`: it is handed that block of each of the
  two audio arrays ([400, 1600]) and of each mask column ([400, 1]), and stores three [400, 1600] blocks. The body is
  pointwise once a mask column is spread along its rows: the entry at row `p`, lane `q` of a spread column is the
  column's entry at row `p`. So what point `t` writes back is block `t` of ONE function of the whole input arrays
  — the row view's results — and since the 24 blocks tile the 9600 rows, each output array ends holding that function.
-/
import proofs.«116462_j13486197309531_1_alg».proof.Proof.Gen.KernelIdeal.Frame
import proofs.«116462_j13486197309531_1_alg».proof.Proof.SegmentBlend
import Idealize.ShloMosaic.Lib.Pipeline.Value

set_option maxRecDepth 16384

noncomputable section

namespace Cert.KernelIdeal.SegmentValue

open Cert.KernelIdeal Cert.KernelIdeal.Gen Cert.SegmentBlend
open Idealize.ShloMosaic Idealize.ShloMosaic.TcCoe Idealize.SL.Sem Idealize.ShloMosaic.ValueIdx
open Idealize.ShloMosaic.Pipeline (Dat)

variable {F : FTy → Type} [FloatOps F]

/-! ## The body's three stores at an entry of the block -/

theorem zero_offsets : (![0, 0] : Fin 2 → Nat) = fun _ => 0 := funext fun a => by fin_cases a <;> rfl

/-- The mask entry that belongs to a block entry: same row, the column's only lane. -/
abbrev headOf (y : S400x1600.Idx) : S400x1.Idx := fun a => match a with
  | ⟨0, _⟩ => ⟨(y 0).val, (y 0).isLt⟩
  | ⟨1, _⟩ => ⟨0, Nat.one_pos⟩

/-- A column spread along its rows reads, at any lane, the column's entry of that row. -/
theorem spread_at (x : Vec F S400x1 .f32) (y : S400x1600.Idx) :
    broadcastTo S400x1600 x broadcasts_S400x1_S400x1600 y = x (headOf y) :=
  broadcastTo_apply x broadcasts_S400x1_S400x1600 y (headOf y) (fun a => match a with
    | ⟨0, _⟩ => by show (y 0).val = if (400 : Nat) = 1 then 0 else (y 0).val; rw [if_neg (by decide)]
    | ⟨1, _⟩ => by show (0 : Nat) = if (1 : Nat) = 1 then 0 else (y 1).val; rw [if_pos rfl])

/-- The body's spread of the attack column (its two same-shape casts are the identity). -/
theorem mask_at (x : Vec F S400x1 .f32) (y : S400x1600.Idx) : k0_pay2 x y = x (headOf y) := by
  unfold k0_pay2
  simp only [shapeCast_self]
  exact spread_at x y

/-- First store: `watermarked · (1 − a) + original · r` at the entry. -/
theorem blend_at (x0 x1 : Vec F S400x1600 .f32) (x2 x3 : Vec F S400x1 .f32) (y : S400x1600.Idx) :
    k0_pay3 x0 x1 x2 x3 y
      = FloatOps.addf (FloatOps.mulf (x1 y) (FloatOps.subf unit (x2 (headOf y)))) (FloatOps.mulf (x0 y) (x3 (headOf y))) := by
  unfold k0_pay3 k0_pay1
  simp only [shapeCast_self]
  show FloatOps.addf (FloatOps.mulf (x1 y) (FloatOps.subf unit (k0_pay2 x2 y)))
      (FloatOps.mulf (x0 y) (broadcastTo S400x1600 x3 broadcasts_S400x1_S400x1600 y)) = _
  rw [mask_at, spread_at]

/-- Second store: `1 − a`. -/
theorem present_at (x2 : Vec F S400x1 .f32) (y : S400x1600.Idx) :
    k0_pay4 x2 y = FloatOps.subf unit (x2 (headOf y)) := by
  unfold k0_pay4
  show FloatOps.subf unit (k0_pay2 x2 y) = _
  rw [mask_at]

/-- Third store: `original · (1 − z)`. -/
theorem keep_at (x0 : Vec F S400x1600 .f32) (x4 : Vec F S400x1 .f32) (y : S400x1600.Idx) :
    k0_pay5 x0 x4 y = FloatOps.mulf (x0 y) (FloatOps.subf unit (x4 (headOf y))) := by
  unfold k0_pay5 k0_pay1
  simp only [shapeCast_self]
  show FloatOps.mulf (x0 y) (FloatOps.subf unit (broadcastTo S400x1600 x4 broadcasts_S400x1_S400x1600 y)) = _
  rw [spread_at]

/-! ## Where the blocks sit -/

/-- All eight windows move together: at point `t` every one is at row block `t` (rows `400 t …`) and at lane
    block 0; decided over the 24 points. -/
theorem block_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = win0_5.index t (0 : Fin 2) ∧ win0_3.index t (1 : Fin 2) = 0
    ∧ win0_4.index t (0 : Fin 2) = win0_5.index t (0 : Fin 2) ∧ win0_4.index t (1 : Fin 2) = 0
    ∧ win0_6.index t (0 : Fin 2) = win0_5.index t (0 : Fin 2) ∧ win0_6.index t (1 : Fin 2) = 0
    ∧ win0_7.index t (0 : Fin 2) = win0_5.index t (0 : Fin 2) ∧ win0_7.index t (1 : Fin 2) = 0
    ∧ win0_5.index t (1 : Fin 2) = 0 :=
  (by decide +kernel : ∀ t : Fin grid0.N, _)

/-- Every row block is some point's. -/
theorem onto_attacked : ∀ q0 : Fin 24, ∃ t : Fin cfg0.N, win0_5.index t = ![q0.val, 0] :=
  (by decide +kernel : ∀ q0 : Fin 24, ∃ t : Fin grid0.N, win0_5.index t = ![q0.val, 0])
theorem onto_presence : ∀ q0 : Fin 24, ∃ t : Fin cfg0.N, win0_6.index t = ![q0.val, 0] :=
  (by decide +kernel : ∀ q0 : Fin 24, ∃ t : Fin grid0.N, win0_6.index t = ![q0.val, 0])
theorem onto_kept : ∀ q0 : Fin 24, ∃ t : Fin cfg0.N, win0_7.index t = ![q0.val, 0] :=
  (by decide +kernel : ∀ q0 : Fin 24, ∃ t : Fin grid0.N, win0_7.index t = ![q0.val, 0])

variable (m : (ℓ : Loc nD τ sig) → Buf (Elt F) ℓ)

/-! ## What a point writes back is its block of the row view's result -/

theorem flushed_attacked (c : Dev nD) (t : Fin cfg0.N) :
    (dats m 0 c).flushed 5 t = ((cfg0.win 5).blk t).view.read (Elt F)
      (rowAttacked (V m c main_v24) (V m c main_v25) (V m c main_v26) (V m c main_v27)) := by
  show (cfg0.win 5).cut (grid0.coords t) ((dats m 0 c).after 5 t) = _
  rw [after0_5]
  unfold out0_5
  rw [View.canon_unit_zero zero_offsets]
  simp only [View.ld_unit_zero (S := S400x1600) zero_offsets, View.ld_unit_zero (S := S400x1) zero_offsets]
  obtain ⟨e00, e01, e10, e11, e20, e21, e30, e31, e40, e41, e60, e61, e70, e71, e51⟩ := block_facts t
  funext j
  have hj0 : (j 0).val < 400 := (j 0).isLt
  have hj1 : (j 1).val < 1600 := (j 1).isLt
  show k0_pay3 (iblk m c 0 t) (iblk m c 1 t) (iblk m c 2 t) (iblk m c 3 t) ((cfg0.win 5).xinj (grid0.coords t) j) = _
  refine (blend_at (iblk m c 0 t) (iblk m c 1 t) (iblk m c 2 t) (iblk m c 3 t) ((cfg0.win 5).xinj (grid0.coords t) j)).trans ?_
  have h0 : ((cfg0.win 0).blk t).view.emb ((cfg0.win 5).xinj (grid0.coords t) j) = ((cfg0.win 5).blk t).view.emb j := by
    funext a; apply Fin.ext
    match a with
    | ⟨0, _⟩ => show win0_0.index t (0 : Fin 2) * 400 + 1 * (j 0).val = win0_5.index t (0 : Fin 2) * 400 + 1 * (j 0).val; omega
    | ⟨1, _⟩ => show win0_0.index t (1 : Fin 2) * 1600 + 1 * (j 1).val = win0_5.index t (1 : Fin 2) * 1600 + 1 * (j 1).val; omega
  have h1 : ((cfg0.win 1).blk t).view.emb ((cfg0.win 5).xinj (grid0.coords t) j) = ((cfg0.win 5).blk t).view.emb j := by
    funext a; apply Fin.ext
    match a with
    | ⟨0, _⟩ => show win0_1.index t (0 : Fin 2) * 400 + 1 * (j 0).val = win0_5.index t (0 : Fin 2) * 400 + 1 * (j 0).val; omega
    | ⟨1, _⟩ => show win0_1.index t (1 : Fin 2) * 1600 + 1 * (j 1).val = win0_5.index t (1 : Fin 2) * 1600 + 1 * (j 1).val; omega
  have h2 : ((cfg0.win 2).blk t).view.emb (headOf ((cfg0.win 5).xinj (grid0.coords t) j)) = colOf (((cfg0.win 5).blk t).view.emb j) := by
    funext a; apply Fin.ext
    match a with
    | ⟨0, _⟩ => show win0_2.index t (0 : Fin 2) * 400 + 1 * (j 0).val = win0_5.index t (0 : Fin 2) * 400 + 1 * (j 0).val; omega
    | ⟨1, _⟩ => show win0_2.index t (1 : Fin 2) * 1 + 1 * 0 = 0; omega
  have h3 : ((cfg0.win 3).blk t).view.emb (headOf ((cfg0.win 5).xinj (grid0.coords t) j)) = colOf (((cfg0.win 5).blk t).view.emb j) := by
    funext a; apply Fin.ext
    match a with
    | ⟨0, _⟩ => show win0_3.index t (0 : Fin 2) * 400 + 1 * (j 0).val = win0_5.index t (0 : Fin 2) * 400 + 1 * (j 0).val; omega
    | ⟨1, _⟩ => show win0_3.index t (1 : Fin 2) * 1 + 1 * 0 = 0; omega
  show FloatOps.addf
        (FloatOps.mulf (V m c main_v25 (((cfg0.win 1).blk t).view.emb ((cfg0.win 5).xinj (grid0.coords t) j)))
          (FloatOps.subf unit (V m c main_v26 (((cfg0.win 2).blk t).view.emb (headOf ((cfg0.win 5).xinj (grid0.coords t) j))))))
        (FloatOps.mulf (V m c main_v24 (((cfg0.win 0).blk t).view.emb ((cfg0.win 5).xinj (grid0.coords t) j)))
          (V m c main_v27 (((cfg0.win 3).blk t).view.emb (headOf ((cfg0.win 5).xinj (grid0.coords t) j)))))
      = FloatOps.addf
        (FloatOps.mulf (V m c main_v25 (((cfg0.win 5).blk t).view.emb j))
          (FloatOps.subf unit (V m c main_v26 (colOf (((cfg0.win 5).blk t).view.emb j)))))
        (FloatOps.mulf (V m c main_v24 (((cfg0.win 5).blk t).view.emb j))
          (V m c main_v27 (colOf (((cfg0.win 5).blk t).view.emb j))))
  rw [h0, h1, h2, h3]

theorem flushed_presence (c : Dev nD) (t : Fin cfg0.N) :
    (dats m 0 c).flushed 6 t = ((cfg0.win 6).blk t).view.read (Elt F) (rowPresence (V m c main_v26)) := by
  show (cfg0.win 6).cut (grid0.coords t) ((dats m 0 c).after 6 t) = _
  rw [after0_6]
  unfold out0_6
  rw [View.canon_unit_zero zero_offsets]
  simp only [View.ld_unit_zero (S := S400x1) zero_offsets]
  obtain ⟨e00, e01, e10, e11, e20, e21, e30, e31, e40, e41, e60, e61, e70, e71, e51⟩ := block_facts t
  funext j
  have hj0 : (j 0).val < 400 := (j 0).isLt
  have hj1 : (j 1).val < 1600 := (j 1).isLt
  show k0_pay4 (iblk m c 2 t) ((cfg0.win 6).xinj (grid0.coords t) j) = _
  refine (present_at (iblk m c 2 t) ((cfg0.win 6).xinj (grid0.coords t) j)).trans ?_
  have h2 : ((cfg0.win 2).blk t).view.emb (headOf ((cfg0.win 6).xinj (grid0.coords t) j)) = colOf (((cfg0.win 6).blk t).view.emb j) := by
    funext a; apply Fin.ext
    match a with
    | ⟨0, _⟩ => show win0_2.index t (0 : Fin 2) * 400 + 1 * (j 0).val = win0_6.index t (0 : Fin 2) * 400 + 1 * (j 0).val; omega
    | ⟨1, _⟩ => show win0_2.index t (1 : Fin 2) * 1 + 1 * 0 = 0; omega
  show FloatOps.subf unit (V m c main_v26 (((cfg0.win 2).blk t).view.emb (headOf ((cfg0.win 6).xinj (grid0.coords t) j))))
      = FloatOps.subf unit (V m c main_v26 (colOf (((cfg0.win 6).blk t).view.emb j)))
  rw [h2]

theorem flushed_kept (c : Dev nD) (t : Fin cfg0.N) :
    (dats m 0 c).flushed 7 t = ((cfg0.win 7).blk t).view.read (Elt F) (rowKept (V m c main_v24) (V m c main_v28)) := by
  show (cfg0.win 7).cut (grid0.coords t) ((dats m 0 c).after 7 t) = _
  rw [after0_7]
  unfold out0_7
  rw [View.canon_unit_zero zero_offsets]
  simp only [View.ld_unit_zero (S := S400x1600) zero_offsets, View.ld_unit_zero (S := S400x1) zero_offsets]
  obtain ⟨e00, e01, e10, e11, e20, e21, e30, e31, e40, e41, e60, e61, e70, e71, e51⟩ := block_facts t
  funext j
  have hj0 : (j 0).val < 400 := (j 0).isLt
  have hj1 : (j 1).val < 1600 := (j 1).isLt
  show k0_pay5 (iblk m c 0 t) (iblk m c 4 t) ((cfg0.win 7).xinj (grid0.coords t) j) = _
  refine (keep_at (iblk m c 0 t) (iblk m c 4 t) ((cfg0.win 7).xinj (grid0.coords t) j)).trans ?_
  have h0 : ((cfg0.win 0).blk t).view.emb ((cfg0.win 7).xinj (grid0.coords t) j) = ((cfg0.win 7).blk t).view.emb j := by
    funext a; apply Fin.ext
    match a with
    | ⟨0, _⟩ => show win0_0.index t (0 : Fin 2) * 400 + 1 * (j 0).val = win0_7.index t (0 : Fin 2) * 400 + 1 * (j 0).val; omega
    | ⟨1, _⟩ => show win0_0.index t (1 : Fin 2) * 1600 + 1 * (j 1).val = win0_7.index t (1 : Fin 2) * 1600 + 1 * (j 1).val; omega
  have h4 : ((cfg0.win 4).blk t).view.emb (headOf ((cfg0.win 7).xinj (grid0.coords t) j)) = colOf (((cfg0.win 7).blk t).view.emb j) := by
    funext a; apply Fin.ext
    match a with
    | ⟨0, _⟩ => show win0_4.index t (0 : Fin 2) * 400 + 1 * (j 0).val = win0_7.index t (0 : Fin 2) * 400 + 1 * (j 0).val; omega
    | ⟨1, _⟩ => show win0_4.index t (1 : Fin 2) * 1 + 1 * 0 = 0; omega
  show FloatOps.mulf (V m c main_v24 (((cfg0.win 0).blk t).view.emb ((cfg0.win 7).xinj (grid0.coords t) j)))
        (FloatOps.subf unit (V m c main_v28 (((cfg0.win 4).blk t).view.emb (headOf ((cfg0.win 7).xinj (grid0.coords t) j)))))
      = FloatOps.mulf (V m c main_v24 (((cfg0.win 7).blk t).view.emb j))
        (FloatOps.subf unit (V m c main_v28 (colOf (((cfg0.win 7).blk t).view.emb j))))
  rw [h0, h4]

end Cert.KernelIdeal.SegmentValue

end
-- ==== Proof.KernelArrays.lean ====
/-
  The 24 blocks of 400 rows tile the 9600 rows, so after the region each output array holds the row view's result.

  Row `r` lies in the block of point `r / 400`; the lane axis is one block wide. With every index of an output array
  in some written-back block, and every written-back block a restriction of one function of the input arrays, the
  array ends equal to that function.
-/
import proofs.«116462_j13486197309531_1_alg».proof.Proof.KernelBlocks

set_option maxRecDepth 16384

noncomputable section

namespace Cert.KernelIdeal.SegmentValue

open Cert.KernelIdeal Cert.KernelIdeal.Gen Cert.SegmentBlend
open Idealize.ShloMosaic Idealize.ShloMosaic.TcCoe Idealize.SL.Sem Idealize.ShloMosaic.ValueIdx
open Idealize.ShloMosaic.Pipeline (Dat)

variable {F : FTy → Type} [FloatOps F]

/-! ## An index is in a point's block iff each coordinate is in the block's range -/

theorem mem_attacked (t : Fin cfg0.N) (i : S9600x1600.Idx) :
    i ∈ ((cfg0.win 5).blk t).view.set ↔ ∀ a : Fin 2, win0_5.index t a * S400x1600.size a ≤ (i a).val
      ∧ (i a).val < win0_5.index t a * S400x1600.size a + S400x1600.size a := by
  show i ∈ ((View.whole main_v29_0).slice (win0_5.rect t)).set ↔ _
  rw [View.set_slice_whole, Rect.mem_set_unit]
  exact Iff.rfl

theorem mem_presence (t : Fin cfg0.N) (i : S9600x1600.Idx) :
    i ∈ ((cfg0.win 6).blk t).view.set ↔ ∀ a : Fin 2, win0_6.index t a * S400x1600.size a ≤ (i a).val
      ∧ (i a).val < win0_6.index t a * S400x1600.size a + S400x1600.size a := by
  show i ∈ ((View.whole main_v29_1).slice (win0_6.rect t)).set ↔ _
  rw [View.set_slice_whole, Rect.mem_set_unit]
  exact Iff.rfl

theorem mem_kept (t : Fin cfg0.N) (i : S9600x1600.Idx) :
    i ∈ ((cfg0.win 7).blk t).view.set ↔ ∀ a : Fin 2, win0_7.index t a * S400x1600.size a ≤ (i a).val
      ∧ (i a).val < win0_7.index t a * S400x1600.size a + S400x1600.size a := by
  show i ∈ ((View.whole main_v29_2).slice (win0_7.rect t)).set ↔ _
  rw [View.set_slice_whole, Rect.mem_set_unit]
  exact Iff.rfl

/-! ## Every index is in the block of the point of its row -/

theorem cover_attacked (i : S9600x1600.Idx) :
    ∃ t : Fin cfg0.N, (cfg0.win 5).flush t = true ∧ i ∈ ((cfg0.win 5).blk t).view.set := by
  have hi0 : (i 0).val < 9600 := (i 0).isLt
  have hi1 : (i 1).val < 1600 := (i 1).isLt
  obtain ⟨t, ht⟩ := onto_attacked ⟨(i 0).val / 400, by omega⟩
  have q0 : win0_5.index t (0 : Fin 2) = (i 0).val / 400 := congrFun ht 0
  have q1 : win0_5.index t (1 : Fin 2) = 0 := congrFun ht 1
  refine ⟨t, flush0_5 t, ?_⟩
  rw [mem_attacked]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 1600 ≤ (i 1).val ∧ (i 1).val < win0_5.index t (1 : Fin 2) * 1600 + 1600; omega

theorem cover_presence (i : S9600x1600.Idx) :
    ∃ t : Fin cfg0.N, (cfg0.win 6).flush t = true ∧ i ∈ ((cfg0.win 6).blk t).view.set := by
  have hi0 : (i 0).val < 9600 := (i 0).isLt
  have hi1 : (i 1).val < 1600 := (i 1).isLt
  obtain ⟨t, ht⟩ := onto_presence ⟨(i 0).val / 400, by omega⟩
  have q0 : win0_6.index t (0 : Fin 2) = (i 0).val / 400 := congrFun ht 0
  have q1 : win0_6.index t (1 : Fin 2) = 0 := congrFun ht 1
  refine ⟨t, flush0_6 t, ?_⟩
  rw [mem_presence]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 1600 ≤ (i 1).val ∧ (i 1).val < win0_6.index t (1 : Fin 2) * 1600 + 1600; omega

theorem cover_kept (i : S9600x1600.Idx) :
    ∃ t : Fin cfg0.N, (cfg0.win 7).flush t = true ∧ i ∈ ((cfg0.win 7).blk t).view.set := by
  have hi0 : (i 0).val < 9600 := (i 0).isLt
  have hi1 : (i 1).val < 1600 := (i 1).isLt
  obtain ⟨t, ht⟩ := onto_kept ⟨(i 0).val / 400, by omega⟩
  have q0 : win0_7.index t (0 : Fin 2) = (i 0).val / 400 := congrFun ht 0
  have q1 : win0_7.index t (1 : Fin 2) = 0 := congrFun ht 1
  refine ⟨t, flush0_7 t, ?_⟩
  rw [mem_kept]
  intro a
  match a with
  | ⟨0, _⟩ => show win0_7.index t (0 : Fin 2) * 400 ≤ (i 0).val ∧ (i 0).val < win0_7.index t (0 : Fin 2) * 400 + 400; omega
  | ⟨1, _⟩ => show win0_7.index t (1 : Fin 2) * 1600 ≤ (i 1).val ∧ (i 1).val < win0_7.index t (1 : Fin 2) * 1600 + 1600; omega

/-! ## The output arrays after the region -/

variable (m : (ℓ : Loc nD τ sig) → Buf (Elt F) ℓ)

theorem array_attacked (c : Dev nD) :
    (dats m 0 c).arrAt 5 cfg0.N = rowAttacked (V m c main_v24) (V m c main_v25) (V m c main_v26) (V m c main_v27) :=
  (dats m 0 c).arrAt_eq_of_cover 5 (rowAttacked (V m c main_v24) (V m c main_v25) (V m c main_v26) (V m c main_v27))
    (fun t _ => flushed_attacked m c t) cover_attacked

theorem array_presence (c : Dev nD) :
    (dats m 0 c).arrAt 6 cfg0.N = rowPresence (V m c main_v26) :=
  (dats m 0 c).arrAt_eq_of_cover 6 (rowPresence (V m c main_v26)) (fun t _ => flushed_presence m c t) cover_presence

theorem array_kept (c : Dev nD) :
    (dats m 0 c).arrAt 7 cfg0.N = rowKept (V m c main_v24) (V m c main_v28) :=
  (dats m 0 c).arrAt_eq_of_cover 7 (rowKept (V m c main_v24) (V m c main_v28)) (fun t _ => flushed_kept m c t) cover_kept

end Cert.KernelIdeal.SegmentValue

end
-- ==== Proof.KernelEntry.lean ====
/-
  What the kernel's region finds in its five input arrays.

  Before the region the host builds the three per-segment masks — the same operations, word for word, as the
  reference's, so they are named here by the reference's stages and never opened — and re-reads every array in the row
  view: the two audio arrays [32, 1, 480000] as 9600 rows of 1600 samples, each mask [32, 300] as a column [9600, 1].
  Each of the five is one reshape of something the arguments determine.
-/
import proofs.«116462_j13486197309531_1_alg».proof.Proof.Gen.KernelIdeal.Frame
import proofs.«116462_j13486197309531_1_alg».proof.Proof.Gen.ReferenceIdeal.Read
import Idealize.ShloMosaic.Lib.StableHlo.Run

set_option maxRecDepth 16384

noncomputable section

namespace Cert.KernelIdeal.SegmentValue

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The original audio, as rows. -/
theorem entry_original (c : Dev nD) :
    V m c main_v24 = shapeCast S9600x1600 (m ((c : Thread nD τ).loc main_arg0)) shapeCasts_S32x1x480000_S9600x1600 := by
  show StableHlo.after hostOps0 (fun b => m (c, b)) (Proc.devRef .tc main_v24) = _
  after_results_simp <;> rfl

/-- The watermarked audio, as rows. -/
theorem entry_watermarked (c : Dev nD) :
    V m c main_v25 = shapeCast S9600x1600 (m ((c : Thread nD τ).loc main_arg1)) shapeCasts_S32x1x480000_S9600x1600 := by
  show StableHlo.after hostOps0 (fun b => m (c, b)) (Proc.devRef .tc main_v25) = _
  after_results_simp <;> rfl

/-- The attack mask (ones scattered at the attacked segments), as a column. -/
theorem entry_attack (c : Dev nD) :
    V m c main_v26 = shapeCast S9600x1 (Cert.ReferenceIdeal.Read.val_main_v18 (F := F) (m ((c : Thread nD τ).loc main_arg2)))
      shapeCasts_S32x300_S9600x1 := by
  show StableHlo.after hostOps0 (fun b => m (c, b)) (Proc.devRef .tc main_v26) = _
  after_results_simp <;> rfl

/-- The attacked-and-reverted mask, as a column. -/
theorem entry_revert (c : Dev nD) :
    V m c main_v27 = shapeCast S9600x1 (Cert.ReferenceIdeal.Read.val_main_v20 (F := F) (m ((c : Thread nD τ).loc main_arg2))
      (m ((c : Thread nD τ).loc main_arg3))) shapeCasts_S32x300_S9600x1 := by
  show StableHlo.after hostOps0 (fun b => m (c, b)) (Proc.devRef .tc main_v27) = _
  after_results_simp <;> rfl

/-- The attacked-and-zeroed mask, as a column. -/
theorem entry_zero (c : Dev nD) :
    V m c main_v28 = shapeCast S9600x1 (Cert.ReferenceIdeal.Read.val_main_v23 (F := F) (m ((c : Thread nD τ).loc main_arg2))
      (m ((c : Thread nD τ).loc main_arg3))) shapeCasts_S32x300_S9600x1 := by
  show StableHlo.after hostOps0 (fun b => m (c, b)) (Proc.devRef .tc main_v28) = _
  after_results_simp <;> rfl

end Cert.KernelIdeal.SegmentValue

end
-- ==== Proof.KernelResult.lean ====
/-
  The kernel's run, with each result named.

  After the region the host re-reads each of the three output arrays as samples ([9600, 1600] to [32, 1, 480000]).
  The output arrays hold the row view's results of the input arrays; the input arrays are the arguments and the masks
  re-read as rows and columns; and the row view's results of those, re-read as samples, are the specification's
  results (the layout facts of the specification module). The frame run already says that every weakly fair execution
  terminates without fault and what every buffer holds at the end; here its post is read at the three results.
-/
import proofs.«116462_j13486197309531_1_alg».proof.Proof.KernelArrays
import proofs.«116462_j13486197309531_1_alg».proof.Proof.KernelEntry

set_option maxRecDepth 16384

noncomputable section

namespace Cert.KernelIdeal.SegmentValue

open Cert.KernelIdeal Cert.KernelIdeal.Gen Cert.SegmentBlend
open Idealize.ShloMosaic Idealize.ShloMosaic.TcCoe Idealize.SL.Sem Idealize.ShloMosaic.ValueIdx
open Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The three results after the host's re-reading -/

theorem result_attacked (c : Dev nD) :
    Pipeline.afterTail₀ cfgs (dats m) 0 (V0 m) [hostOps1] c main_v30
      = attacked (m ((c : Thread nD τ).loc main_arg0)) (m ((c : Thread nD τ).loc main_arg1))
          (Cert.ReferenceIdeal.Read.val_main_v18 (F := F) (m ((c : Thread nD τ).loc main_arg2)))
          (Cert.ReferenceIdeal.Read.val_main_v20 (F := F) (m ((c : Thread nD τ).loc main_arg2)) (m ((c : Thread nD τ).loc main_arg3))) := by
  have e : Pipeline.withArrays (cfgs 0).spec c (V0 m c) (fun w => (dats m 0 c).arrAt w (cfgs 0).N) (Proc.devRef .tc main_v29_0)
      = rowAttacked (V m c main_v24) (V m c main_v25) (V m c main_v26) (V m c main_v27) :=
    (Pipeline.withArrays_arr spec0 launch0.win.arr_inj c _ _ 5).trans (array_attacked m c)
  unfold Pipeline.afterTail₀
  show StableHlo.after hostOps1 _ (Proc.devRef .tc main_v30) = _
  after_results
  rw [e, entry_original, entry_watermarked, entry_attack, entry_revert]
  exact unrow_attacked _ _ _ _ _ _ _

theorem result_presence (c : Dev nD) :
    Pipeline.afterTail₀ cfgs (dats m) 0 (V0 m) [hostOps1] c main_v31
      = presence (Cert.ReferenceIdeal.Read.val_main_v18 (F := F) (m ((c : Thread nD τ).loc main_arg2))) := by
  have e : Pipeline.withArrays (cfgs 0).spec c (V0 m c) (fun w => (dats m 0 c).arrAt w (cfgs 0).N) (Proc.devRef .tc main_v29_1)
      = rowPresence (V m c main_v26) :=
    (Pipeline.withArrays_arr spec0 launch0.win.arr_inj c _ _ 6).trans (array_presence m c)
  unfold Pipeline.afterTail₀
  show StableHlo.after hostOps1 _ (Proc.devRef .tc main_v31) = _
  after_results
  rw [e, entry_attack]
  exact unrow_presence _ _ _

theorem result_kept (c : Dev nD) :
    Pipeline.afterTail₀ cfgs (dats m) 0 (V0 m) [hostOps1] c main_v32
      = kept (m ((c : Thread nD τ).loc main_arg0))
          (Cert.ReferenceIdeal.Read.val_main_v23 (F := F) (m ((c : Thread nD τ).loc main_arg2)) (m ((c : Thread nD τ).loc main_arg3))) := by
  have e : Pipeline.withArrays (cfgs 0).spec c (V0 m c) (fun w => (dats m 0 c).arrAt w (cfgs 0).N) (Proc.devRef .tc main_v29_2)
      = rowKept (V m c main_v24) (V m c main_v28) :=
    (Pipeline.withArrays_arr spec0 launch0.win.arr_inj c _ _ 7).trans (array_kept m c)
  unfold Pipeline.afterTail₀
  show StableHlo.after hostOps1 _ (Proc.devRef .tc main_v32) = _
  after_results
  rw [e, entry_original, entry_zero]
  exact unrow_kept _ _ _ _ _

/-! ## The run -/

/-- Every weakly fair execution of the kernel's program terminates without fault, with the three results at the
    specification's functions of the arguments and the arguments unchanged. -/
theorem run : θ_run defs (onTc (τ := τ) (main (F := F))) ⟨m, fun _ => 0, ρ⟩ fun r => ∀ c : Dev nD,
      r.2.mem ((c : Thread nD τ).loc main_v30)
        = attacked (m ((c : Thread nD τ).loc main_arg0)) (m ((c : Thread nD τ).loc main_arg1))
            (Cert.ReferenceIdeal.Read.val_main_v18 (F := F) (m ((c : Thread nD τ).loc main_arg2)))
            (Cert.ReferenceIdeal.Read.val_main_v20 (F := F) (m ((c : Thread nD τ).loc main_arg2)) (m ((c : Thread nD τ).loc main_arg3)))
      ∧ r.2.mem ((c : Thread nD τ).loc main_v31)
        = presence (Cert.ReferenceIdeal.Read.val_main_v18 (F := F) (m ((c : Thread nD τ).loc main_arg2)))
      ∧ r.2.mem ((c : Thread nD τ).loc main_v32)
        = kept (m ((c : Thread nD τ).loc main_arg0))
            (Cert.ReferenceIdeal.Read.val_main_v23 (F := F) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v30 (Pipeline.mem_restRefs_of main_v30 (by decide) (by decide))).trans (result_attacked m c),
     ((h c).2 main_v31 (Pipeline.mem_restRefs_of main_v31 (by decide) (by decide))).trans (result_presence m c),
     ((h c).2 main_v32 (Pipeline.mem_restRefs_of main_v32 (by decide) (by decide))).trans (result_kept m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.SegmentValue

end
-- ==== Proof.ReferenceResult.lean ====
/-
  The reference's three results are the specification's functions of the arguments.

  The reference spreads a per-segment mask over the samples in three layout steps: it repeats each entry 1600 times
  along a new last axis ([32, 300] to [32, 300, 1600]), flattens the two last axes ([32, 480000]) and inserts the
  channel axis ([32, 1, 480000]). Read backwards at sample `t` of item `b`: the channel axis is dropped, position
  `b · 480000 + t` splits as item `b`, segment `t / 1600`, repeat `t % 1600`, and the repeat is forgotten — the
  mask's entry for the sample's segment. The arithmetic after that is pointwise and is the specification's, term for
  term. The masks themselves (a scatter of ones, and its products with the revert flags) are never opened: they enter
  only as the stages that name them.
-/
import proofs.«116462_j13486197309531_1_alg».proof.Proof.Gen.ReferenceIdeal.Read
import proofs.«116462_j13486197309531_1_alg».proof.Proof.SegmentBlend

noncomputable section

namespace Cert.ReferenceIdeal.SegmentResult

open Cert.ReferenceIdeal Cert.ReferenceIdeal.Read Cert.SegmentBlend Idealize.ShloMosaic

variable {F : FTy → Type} [FloatOps F]

/-! ## The three expansions read a mask at the sample's segment -/

theorem seg_attack (i : S32x1x480000.Idx) : idx_main_v24 (idx_main_v25 (idx_main_v26 i)) = segOf i := by
  funext a; apply Fin.ext
  have h2 : (i 2).val < 480000 := (i 2).isLt
  match a with
  | ⟨0, _⟩ => show ((i 0).val * 480000 + (i 2).val) / 480000 = (i 0).val; omega
  | ⟨1, _⟩ => show ((i 0).val * 480000 + (i 2).val) / 1600 % 300 = (i 2).val / 1600; omega

theorem seg_revert (i : S32x1x480000.Idx) : idx_main_v27 (idx_main_v28 (idx_main_v29 i)) = segOf i := by
  funext a; apply Fin.ext
  have h2 : (i 2).val < 480000 := (i 2).isLt
  match a with
  | ⟨0, _⟩ => show ((i 0).val * 480000 + (i 2).val) / 480000 = (i 0).val; omega
  | ⟨1, _⟩ => show ((i 0).val * 480000 + (i 2).val) / 1600 % 300 = (i 2).val / 1600; omega

theorem seg_zero (i : S32x1x480000.Idx) : idx_main_v30 (idx_main_v31 (idx_main_v32 i)) = segOf i := by
  funext a; apply Fin.ext
  have h2 : (i 2).val < 480000 := (i 2).isLt
  match a with
  | ⟨0, _⟩ => show ((i 0).val * 480000 + (i 2).val) / 480000 = (i 0).val; omega
  | ⟨1, _⟩ => show ((i 0).val * 480000 + (i 2).val) / 1600 % 300 = (i 2).val / 1600; omega

/-! ## The results -/

/-- `watermarked · (1 − a) + original · r`, the masks at the sample's segment. -/
theorem attacked_eq (x0 x1 : (⟨S32x1x480000, .f32⟩ : BufTy).Contents (Elt F)) (x2 : (⟨S32x60, .i32⟩ : BufTy).Contents (Elt F))
    (x3 : (⟨S32x300, .i32⟩ : BufTy).Contents (Elt F)) :
    val_main_v37 (F := F) x0 x1 x2 x3 = attacked x0 x1 (val_main_v18 (F := F) x2) (val_main_v20 (F := F) x2 x3) := by
  funext i
  rw [val_main_v37_apply, val_main_v35_apply, val_main_v34_apply, val_main_v33_apply, val_main_cst_5_apply,
    val_main_v26_apply, val_main_v25_apply, val_main_v24_apply,
    val_main_v36_apply, val_main_v29_apply, val_main_v28_apply, val_main_v27_apply, seg_attack, seg_revert]
  rfl

/-- `1 − a`. -/
theorem presence_eq (x2 : (⟨S32x60, .i32⟩ : BufTy).Contents (Elt F)) :
    val_main_v42 (F := F) x2 = presence (val_main_v18 (F := F) x2) := by
  funext i
  rw [val_main_v42_apply, val_main_v41_apply, val_main_cst_7_apply,
    val_main_v26_apply, val_main_v25_apply, val_main_v24_apply, seg_attack]
  rfl

/-- `original · (1 − z)`. -/
theorem kept_eq (x0 : (⟨S32x1x480000, .f32⟩ : BufTy).Contents (Elt F)) (x2 : (⟨S32x60, .i32⟩ : BufTy).Contents (Elt F))
    (x3 : (⟨S32x300, .i32⟩ : BufTy).Contents (Elt F)) :
    val_main_v40 (F := F) x0 x2 x3 = kept x0 (val_main_v23 (F := F) x2 x3) := by
  funext i
  rw [val_main_v40_apply, val_main_v39_apply, val_main_v38_apply, val_main_cst_6_apply,
    val_main_v32_apply, val_main_v31_apply, val_main_v30_apply, seg_zero]
  rfl

end Cert.ReferenceIdeal.SegmentResult

end
-- ==== Proof.lean ====
/-
  The kernel and the reference compute the same three arrays from two audio arrays [32, 1, 480000] and two integer
  arrays (60 attacked segment indices and 300 revert flags per item).

  Both first build, with the same operations, three per-segment masks over [32, 300]: `a`, ones scattered at the
  attacked segments; `r = a · flags`; `z = a · (1 − flags)`. A sample `t` lies in segment `t / 1600`. The results are
    attacked = watermarked · (1 − a) + original · r,   presence = 1 − a,   kept = original · (1 − z),
  each mask read at the sample's segment.

  The reference spreads each mask over the samples by repeating every entry 1600 times and flattening. The kernel
  instead re-reads the audio as 9600 rows of 1600 samples, one row per (item, segment), and each mask as a column of
  9600 entries; 24 grid points each take 400 rows, spread the column entries along their rows and apply the same
  arithmetic; the host re-reads the three outputs as samples. Row `b · 300 + t / 1600`, lane `t % 1600` is sample
  `t` of item `b`, and that row's column entry is the mask's entry for segment `t / 1600` of item `b`: the two are
  one function, with the same operations in the same order, so no law of arithmetic and no finiteness of the inputs
  is used. The masks are never opened.

  The frames of the two kernel programs are their generated frame runs; the reference's is its generated run with the
  results dropped; the idealization rewrote nothing.
-/
import proofs.«116462_j13486197309531_1_alg».proof.Defs
import proofs.«116462_j13486197309531_1_alg».proof.Proof.Gen.Kernel
import proofs.«116462_j13486197309531_1_alg».proof.Proof.Gen.Kernel.Skeleton
import proofs.«116462_j13486197309531_1_alg».proof.Proof.Gen.Kernel.Launch
import proofs.«116462_j13486197309531_1_alg».proof.Proof.Gen.Kernel.Points
import proofs.«116462_j13486197309531_1_alg».proof.Proof.Gen.Kernel.Frame
import proofs.«116462_j13486197309531_1_alg».proof.Proof.Gen.KernelIdeal
import proofs.«116462_j13486197309531_1_alg».proof.Proof.Gen.KernelIdeal.Skeleton
import proofs.«116462_j13486197309531_1_alg».proof.Proof.Gen.KernelIdeal.Launch
import proofs.«116462_j13486197309531_1_alg».proof.Proof.Gen.KernelIdeal.Points
import proofs.«116462_j13486197309531_1_alg».proof.Proof.Gen.KernelIdeal.Frame
import proofs.«116462_j13486197309531_1_alg».proof.Proof.Gen.ReferenceIdeal
import proofs.«116462_j13486197309531_1_alg».proof.Proof.Gen.ReferenceIdeal.Run
import proofs.«116462_j13486197309531_1_alg».proof.Proof.Gen.ReferenceIdeal.Read
import proofs.«116462_j13486197309531_1_alg».proof.Proof.Gen.Pre_finite_inputs
import proofs.«116462_j13486197309531_1_alg».proof.Proof.KernelResult
import proofs.«116462_j13486197309531_1_alg».proof.Proof.ReferenceResult
import Idealize.ShloMosaic.Adequacy
import Idealize.ShloMosaic.Init

noncomputable section

namespace Cert.Proof

open Idealize.ShloMosaic Idealize.SL.Sem

/-- The word-level kernel terminates without fault and leaves its arguments alone. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- And the idealized reference: its run, with what it says of the results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the four arguments both programs end with the three results at the specification's
    functions of those arguments: the kernel's run says so directly, the reference's after its three result stages are
    read as those functions and the agreement is used. -/
theorem algebraic : Cert.algebraic_KernelIdeal_ReferenceIdeal := by
  intro m ρ m' ρ' _ hagree
  refine ⟨_, _, _, Cert.KernelIdeal.SegmentValue.run (F := Ideal) m ρ, ?_⟩
  refine (θ_run Cert.ReferenceIdeal.defs _ _).mono (fun _ h c => ?_) (Cert.ReferenceIdeal.Value.run (F := Ideal) m' ρ')
  obtain ⟨h37, h42, h40, k0, k1, k2, k3⟩ := h c
  obtain ⟨a0, a1, a2, a3⟩ := hagree c
  refine ⟨?_, ?_, ?_, k0, k1, k2, k3⟩
  · rw [h37, Cert.ReferenceIdeal.Read.val_main_v37_eq, Cert.ReferenceIdeal.SegmentResult.attacked_eq, a0, a1, a2, a3]
  · rw [h42, Cert.ReferenceIdeal.Read.val_main_v42_eq, Cert.ReferenceIdeal.SegmentResult.presence_eq, a2]
  · rw [h40, Cert.ReferenceIdeal.Read.val_main_v40_eq, Cert.ReferenceIdeal.SegmentResult.kept_eq, a0, a2, a3]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
